-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S64x64 : Shape := ⟨2, ![64, 64]⟩
abbrev S64 : Shape := ⟨1, ![64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S8x2048x64 : Shape := ⟨3, ![8, 2048, 64]⟩
abbrev S64x64 : Shape := ⟨2, ![64, 64]⟩
abbrev S64 : Shape := ⟨1, ![64]⟩
abbrev S1x64 : Shape := ⟨2, ![1, 64]⟩
abbrev S1x2048x64 : Shape := ⟨3, ![1, 2048, 64]⟩
abbrev S2048x64 : Shape := ⟨2, ![2048, 64]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x2048x64, .f32⟩
  | .local _ .vmem, ⟨9, _⟩ => ⟨S1x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x2048_S2048 : S2048x2048.Reduces [0] S2048
  shapeCasts_S2048_S1x2048 : S2048.ShapeCasts S1x2048
  broadcasts_S1x2048_S2048x2048 : S1x2048.Broadcasts S2048x2048
  shapeCasts_S2048x64_S1x2048x64 : S2048x64.ShapeCasts S1x2048x64
  dot_S2048x64_S64x64_S2048x64_1_1_0_0_n_n_wf : DotDims.WF S2048x64 S64x64 S2048x64 [1] [1] [0] [0] [] []
  dot_S2048x64_S2048x64_S2048x2048_1_1_0_0_n_n_wf : DotDims.WF S2048x64 S2048x64 S2048x2048 [1] [1] [0] [0] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x2048x64.size a
  hwx0_0 : ∀ i : grid0.Coords, EltTy.bits .f32 = 32 ∨ (Rect.block (s := S8x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S8x2048x64.size a
  hwx0_7 : ∀ i : grid0.Coords, EltTy.bits .f32 = 32 ∨ (Rect.block (s := S8x2048x64) S1x2048x64.size (cc0_transform_7 i) (hinb0_7 i)).WholeWords (EltTy.packing .f32)

variable [Facts₀]

def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S64x64 : Shape := ⟨2, ![64, 64]⟩
abbrev S64 : Shape := ⟨1, ![64]⟩
abbrev S1x1x64 : Shape := ⟨3, ![1, 1, 64]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S8x2048x64, .f32⟩
  | .hbm, ⟨8, _⟩ => ⟨S1x1x64, .f32⟩
  | .hbm, ⟨9, _⟩ => ⟨S8x2048x64, .f32⟩
  | .hbm, ⟨10, _⟩ => ⟨S8x2048x64, .f32⟩
  | .hbm, ⟨11, _⟩ => ⟨S8x2048x64, .f32⟩
  | .hbm, ⟨12, _⟩ => ⟨S1x1x64, .f32⟩
  | .hbm, ⟨13, _⟩ => ⟨S8x2048x64, .f32⟩
  | .hbm, ⟨14, _⟩ => ⟨S8x2048x64, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x64, .f32⟩
  | .hbm, ⟨28, _⟩ => ⟨S1x1x64, .f32⟩
  | .hbm, ⟨29, _⟩ => ⟨S8x2048x64, .f32⟩
  | .hbm, ⟨30, _⟩ => ⟨S8x2048x64, .f32⟩
  | .hbm, ⟨31, _⟩ => ⟨S8x2048x64, .f32⟩
  | .hbm, ⟨32, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x2048x2048_0_1_2 : S8x1x2048.BroadcastsInDim S8x2048x2048 (![0, 1, 2] : Fin 3 → Fin S8x2048x2048.rank)
  dot_S8x2048x64_S64x64_S8x2048x64_2_1_01_0_n_n_wf : DotDims.WF S8x2048x64 S64x64 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S64x64_S8x2048x64_2_1_01_0_n_n : DotDims S8x2048x64 S64x64 S8x2048x64 where
  lhsContracting := [2]
  rhsContracting := [1]
  lhsNonContracting := [0, 1]
  rhsNonContracting := [0]
  lhsBatch := []
  rhsBatch := []
  wf := dot_S8x2048x64_S64x64_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  Column-normalised attention of one batch, over the extended reals, and the one law that joins its two spellings.

  For a block `X` of `L` rows and `D` columns, three `D × D` weight matrices and three bias rows, the three
  projections are `X · Wᵀ + bias` (`lin`), the scores are the products of the rows of the first projection with the
  rows of the second, the activations are the scores cut off below at zero, and each COLUMN of the activations is
  divided by its sum over the rows plus a positive constant; the result is `X` plus the product of the normalised
  activations with the third projection.  One program multiplies an activation with the reciprocal `1 / s` of the
  column's denominator, the other divides by it.  The quotient of the extended reals used here is `a · s⁻¹` off
  `s = 0` and has its own convention at `s = 0`; the denominators are sums of non-negative terms plus a positive
  constant, so they are positive, never zero, and there `a · (1 / s) = a · (1 · s⁻¹) = a · s⁻¹ = a / s` for EVERY
  extended real `a`: no finiteness of the inputs is needed.
-/
import Idealize.ShloMosaic.PureOps.Ideal
import Idealize.ShloMosaic.PureOps.Ideal.Laws

noncomputable section

namespace Cert.ColumnAttention

open Idealize.ShloMosaic
open scoped BigOperators

variable {L D : Nat}

/-- A projection: row `l` of `X` against row `e` of `W`, plus the bias at `e`. -/
def lin (X : Fin L → Fin D → EReal) (W : Fin D → Fin D → EReal) (bias : Fin D → EReal) (l : Fin L) (e : Fin D) : EReal :=
  (∑ d : Fin D, X l d * W e d) + bias e

variable (X : Fin L → Fin D → EReal) (Wb Wc Wv : Fin D → Fin D → EReal) (bb bc bv : Fin D → EReal) (eps : EReal)

/-- The score of rows `l` and `m`: the first projection's row `l` against the second projection's row `m`. -/
def score (l m : Fin L) : EReal := ∑ d : Fin D, lin X Wb bb l d * lin X Wc bc m d

/-- The activation: the score cut off below at zero. -/
def act (l m : Fin L) : EReal := max (score X Wb Wc bb bc l m) 0

/-- The denominator of column `m`: the column's sum over the rows, plus the constant. -/
def colsum (m : Fin L) : EReal := (∑ l : Fin L, act X Wb Wc bb bc l m) + eps

/-- The result with each activation MULTIPLIED by the reciprocal of its column's denominator. -/
def outMul (l : Fin L) (d : Fin D) : EReal :=
  X l d + ∑ m : Fin L, (act X Wb Wc bb bc l m * Ideal.div 1 (colsum X Wb Wc bb bc eps m)) * lin X Wv bv m d

/-- The result with each activation DIVIDED by its column's denominator. -/
def outDiv (l : Fin L) (d : Fin D) : EReal :=
  X l d + ∑ m : Fin L, Ideal.div (act X Wb Wc bb bc l m) (colsum X Wb Wc bb bc eps m) * lin X Wv bv m d

theorem act_nonneg (l m : Fin L) : 0 ≤ act X Wb Wc bb bc l m := le_max_right _ _

/-- A column's denominator is positive: a sum of non-negative activations plus a positive constant. -/
theorem colsum_pos (heps : 0 < eps) (m : Fin L) : 0 < colsum X Wb Wc bb bc eps m :=
  lt_of_lt_of_le heps (le_add_of_nonneg_left (Finset.sum_nonneg fun l _ => act_nonneg X Wb Wc bb bc l m))

/-- Off a zero denominator the product with the reciprocal is the quotient, for every extended real numerator. -/
theorem mul_one_div (a s : EReal) (hs : s ≠ 0) : a * Ideal.div 1 s = Ideal.div a s := by
  unfold Ideal.div
  rw [if_neg hs, if_neg hs, one_mul]

/-- The two spellings of the normalisation give one result. -/
theorem outMul_eq_outDiv (heps : 0 < eps) (l : Fin L) (d : Fin D) :
    outMul X Wb Wc Wv bb bc bv eps l d = outDiv X Wb Wc Wv bb bc bv eps l d := by
  unfold outMul outDiv
  refine congrArg (X l d + ·) (Finset.sum_congr rfl fun m _ => ?_)
  rw [mul_one_div _ _ (ne_of_gt (colsum_pos X Wb Wc bb bc eps heps m))]

/-- The constant both programs add to a column's sum, the single-precision word nearest to `1e-8`, is a positive real. -/
theorem eps_pos : (0 : EReal) < Ideal.ofBits .f32 0x322BCC77#32 := by
  simp [Ideal.ofBits, Ideal.ieee]
  positivity

end Cert.ColumnAttention

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KernelBlock.lean ====
/-
  One grid point's arithmetic, read at an index.

  The body loads the one-batch block of `x` (a `1 × 2048 × 64` array), the three `64 × 64` weight matrices and the
  three biases (each a `1 × 64` row), and stores ONE value computed from them.  Read at the ideal values, where the
  half-precision casts are the identity, each of its pieces is a plain formula in the coordinates:
  * the block with its unit axis dropped is `X l d = x (0, l, d)`;
  * a projection, the product of `X` with a weight matrix contracted on the second axis of BOTH plus the bias row
    broadcast over the rows, is `∑ d, X l d · W e d + bias e`;
  * the scores are the product of the first two projections contracted on the second axis of both, and the
    activations their maximum with zero;
  * the sum of the activations over the FIRST axis (a column's sum over the rows), plus the constant, is the
    column's denominator, and the body holds its reciprocal as a `1 × 2048` row;
  * the stored value is `X` plus the product (contracted rows by columns) of the activations, each multiplied with
    the reciprocal of its column's denominator, with the third projection, with a unit axis put back in front.
  Together (`stored_apply`): the stored value at `(0, l, d)` is the column-normalised attention of the block in its
  product-with-the-reciprocal spelling.
-/
import proofs.«162024_j11089605558362_1_alg».proof.Proof.Gen.KernelIdeal.Skeleton
import proofs.«162024_j11089605558362_1_alg».proof.Proof.Spec
import proofs.«162024_j11089605558362_1_alg».proof.Proof.LibDotFormats
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Block

open Cert.KernelIdeal Cert.KernelIdeal.Gen Idealize.ShloMosaic Idealize.ShloMosaic.ValueIdx Cert.ColumnAttention
open scoped BigOperators

/-- The rows of a one-batch block. -/
def rows (v0 : Vec Ideal S1x2048x64 .f32) : Fin 2048 → Fin 64 → EReal := fun l d => v0 (ix3 (0 : Fin 1) l d)
/-- A weight matrix by its coordinates. -/
def mat (w : Vec Ideal S64x64 .f32) : Fin 64 → Fin 64 → EReal := fun e d => w (ix2 e d)
/-- A bias held as a one-row matrix, by its column. -/
def brow (v : Vec Ideal S1x64 .f32) : Fin 64 → EReal := fun e => v (ix2 (0 : Fin 1) e)

variable (v0 : Vec Ideal S1x2048x64 .f32) (v3 v5 v7 : Vec Ideal S64x64 .f32) (v9 v11 v13 : Vec Ideal S1x64 .f32)

theorem pay2_apply (l : Fin 2048) (d : Fin 64) : k0_pay2 (F := Ideal) v0 (ix2 l d) = rows v0 l d := by
  unfold k0_pay2
  exact shapeCast_1ab_ab_apply v0 _ l d

theorem pay3_apply (l : Fin 2048) (d : Fin 64) : k0_pay3 (F := Ideal) v0 (ix2 l d) = rows v0 l d := by
  unfold k0_pay3
  rw [truncf_apply]
  exact pay2_apply v0 l d

/-- One projection of the block: the product of the block with the transposed weights, plus the bias row. -/
theorem proj_apply (w : Vec Ideal S64x64 .f32) (bias : Vec Ideal S1x64 .f32) (l : Fin 2048) (e : Fin 64) :
    addf (matmul dot_S2048x64_S64x64_S2048x64_1_1_0_0_n_n none (k0_pay3 (F := Ideal) v0) (truncf .bf16 w bitsLt_bf16_f32)
        (constant S2048x64 .f32 0x00000000#32))
      (broadcastTo S2048x64 (shapeCast S1x64 bias shapeCasts_S1x64_S1x64) broadcasts_S1x64_S2048x64) (ix2 l e)
      = lin (rows v0) (mat w) (brow bias) l e := by
  rw [addf_apply, broadcastTo_1b_ab_apply, shapeCast_self]
  unfold lin
  refine congrArg (· + brow bias e) ?_
  refine (Cert.LibDotFormats.matmul_rows_zero_apply dot_S2048x64_S64x64_S2048x64_1_1_0_0_n_n rfl rfl rfl rfl rfl rfl none
    (k0_pay3 (F := Ideal) v0) (truncf .bf16 w bitsLt_bf16_f32) l e).trans ?_
  refine Finset.sum_congr rfl fun k _ => ?_
  rw [pay3_apply, truncf_apply]
  rfl

/-- The third projection, as the last product's right operand holds it. -/
theorem pay4_apply (m : Fin 2048) (d : Fin 64) :
    k0_pay4 (F := Ideal) v0 v7 v13 (ix2 m d) = lin (rows v0) (mat v7) (brow v13) m d := by
  unfold k0_pay4
  rw [truncf_apply]
  exact proj_apply v0 v7 v13 m d

/-- The activations: rows of the first projection against rows of the second, cut off below at zero. -/
theorem pay5_apply (l m : Fin 2048) :
    k0_pay5 (F := Ideal) v0 v3 v5 v9 v11 (ix2 l m) = act (rows v0) (mat v3) (mat v5) (brow v9) (brow v11) l m := by
  unfold k0_pay5
  rw [maximumf_apply, broadcast_apply]
  unfold act score
  refine congrArg₂ max ?_ Ideal.ofBits_zero_f32
  refine (Cert.LibDotFormats.matmul_rows_zero_apply dot_S2048x64_S2048x64_S2048x2048_1_1_0_0_n_n rfl rfl rfl rfl rfl rfl none
    _ _ l m).trans ?_
  refine Finset.sum_congr rfl fun k _ => ?_
  rw [truncf_apply, truncf_apply, proj_apply, proj_apply]

/-- The reciprocal of a column's denominator. -/
theorem pay6_apply (m : Fin 2048) :
    k0_pay6 (F := Ideal) v0 v3 v5 v9 v11 (ix2 (0 : Fin 1) m)
      = Ideal.div 1 (colsum (rows v0) (mat v3) (mat v5) (brow v9) (brow v11) (Ideal.ofBits .f32 0x322BCC77#32) m) := by
  unfold k0_pay6
  rw [divf_apply, broadcast_apply, addf_apply, broadcast_apply, shapeCast_a_1a_apply]
  unfold colsum
  refine congrArg₂ Ideal.div ?_ (congrArg (· + Ideal.ofBits .f32 0x322BCC77#32) ?_)
  · exact Ideal.ofBits_one_f32
  · refine (Ideal.multiReduction_add_single (k0_pay5 (F := Ideal) v0 v3 v5 v9 v11) 0x00000000#32 reduces_S2048x2048_S2048
      _ _ (ix1 m)).trans ?_
    refine Finset.sum_congr rfl fun l _ => ?_
    have e : reduces_S2048x2048_S2048.lift (ix1 m) l = ix2 l m := by
      funext a
      apply Fin.ext
      match a with
      | ⟨0, _⟩ => rfl
      | ⟨1, _⟩ => rfl
    rw [e]
    exact pay5_apply v0 v3 v5 v9 v11 l m

/-- The stored value from the four values it is computed from: the block plus the normalised activations times the
    third projection. -/
theorem pay1_apply (v1 : FVec Ideal S2048x64 .f32) (v26 : FVec Ideal S2048x64 .bf16) (v29 : FVec Ideal S2048x2048 .f32)
    (v35 : FVec Ideal S1x2048 .f32) (l : Fin 2048) (d : Fin 64) :
    k0_pay1 (F := Ideal) v1 v26 v29 v35 (ix3 (0 : Fin 1) l d)
      = v1 (ix2 l d) + ∑ m : Fin 2048, (v29 (ix2 l m) * v35 (ix2 (0 : Fin 1) m)) * v26 (ix2 m d) := by
  unfold k0_pay1
  rw [shapeCast_ab_1ab_apply, addf_apply]
  refine congrArg (v1 (ix2 l d) + ·) ?_
  refine (Cert.LibDotFormats.matmul_cols_zero_apply dot_S2048x2048_S2048x64_S2048x64_1_0_0_1_n_n rfl rfl rfl rfl rfl rfl none
    _ _ l d).trans ?_
  refine Finset.sum_congr rfl fun m _ => ?_
  rw [truncf_apply, mulf_apply, broadcastTo_1b_ab_apply]

/-- What the body stores for one batch, at row `l` and column `d`: the column-normalised attention of the block,
    each activation multiplied by the reciprocal of its column's denominator. -/
theorem stored_apply (l : Fin 2048) (d : Fin 64) :
    k0_pay1 (F := Ideal) (k0_pay2 v0) (k0_pay4 v0 v7 v13) (k0_pay5 v0 v3 v5 v9 v11) (k0_pay6 v0 v3 v5 v9 v11) (ix3 (0 : Fin 1) l d)
      = outMul (rows v0) (mat v3) (mat v5) (mat v7) (brow v9) (brow v11) (brow v13) (Ideal.ofBits .f32 0x322BCC77#32) l d := by
  rw [pay1_apply, pay2_apply]
  unfold outMul
  refine congrArg (rows v0 l d + ·) (Finset.sum_congr rfl fun m _ => ?_)
  rw [pay5_apply, pay6_apply, pay4_apply]

end Cert.KernelIdeal.Block

end
-- ==== Proof.KernelValue.lean ====
/-
  The kernel's result array as one function of its argument arrays.

  The grid has eight points, one per batch.  At point `t` the window of `x` and the output's window both hold the
  `1 × 2048 × 64` block of batch `t`, every other window holds its whole (small) array, and the three bias rows are
  the bias vectors re-laid as `1 × 64` by the host before the region.  So what point `t` writes back is, at
  `(0, l, d)` of its block, the column-normalised attention of batch `t` at `(l, d)` (`Block.stored_apply`), which is
  block `t` of the whole-array function `G`; a block's coordinate on an axis is always index × size + the coordinate
  inside the block.  The eight blocks cover the array (the point covering `(b, l, d)` is the one of batch `b`), so the
  array after the run IS `G` of the arguments.
-/
import proofs.«162024_j11089605558362_1_alg».proof.Proof.Gen.KernelIdeal.Value
import proofs.«162024_j11089605558362_1_alg».proof.Proof.KernelBlock
import proofs.«162024_j11089605558362_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.ColumnAttention Cert.KernelIdeal.Block
open Idealize.ShloMosaic.Pipeline (Dat)

variable (m : (ℓ : Loc nD τ sig) → Buf (Elt Ideal) ℓ) (ρ : Dev nD → PrngReg)

/-- The constant added to a column's sum. -/
abbrev eps : EReal := Ideal.ofBits .f32 0x322BCC77#32

/-- The result array as ONE function of the seven argument arrays: at `(b, l, d)` the column-normalised attention of
    batch `b` (each activation multiplied by the reciprocal of its column's denominator), at row `l` and column `d`. -/
def G (x : S8x2048x64.Idx → EReal) (w1 w3 w5 : S64x64.Idx → EReal) (b2 b4 b6 : S64.Idx → EReal) : S8x2048x64.Idx → EReal :=
  fun i => outMul (fun l d => x (ix3 (i 0) l d)) (fun e d => w1 (ix2 e d)) (fun e d => w3 (ix2 e d)) (fun e d => w5 (ix2 e d))
    (fun e => b2 (ix1 e)) (fun e => b4 (ix1 e)) (fun e => b6 (ix1 e)) eps (i 1) (i 2)

theorem G_apply (x : S8x2048x64.Idx → EReal) (w1 w3 w5 : S64x64.Idx → EReal) (b2 b4 b6 : S64.Idx → EReal)
    (b : Fin 8) (l : Fin 2048) (d : Fin 64) :
    G x w1 w3 w5 b2 b4 b6 (ix3 b l d)
      = outMul (fun l d => x (ix3 b l d)) (fun e d => w1 (ix2 e d)) (fun e d => w3 (ix2 e d)) (fun e d => w5 (ix2 e d))
          (fun e => b2 (ix1 e)) (fun e => b4 (ix1 e)) (fun e => b6 (ix1 e)) eps l d := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight grid points: the block of `x` and the output's block sit at the
    point's batch, every other window at the origin. -/
theorem idx_facts : ∀ t : Fin cfg0.N,
    win0_0.index t (0 : Fin 3) = win0_7.index t (0 : Fin 3) ∧ win0_0.index t (1 : Fin 3) = 0 ∧ win0_0.index t (2 : Fin 3) = 0
    ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every batch is some point's block. -/
theorem idx_onto : ∀ q : Fin 8, ∃ t : Fin cfg0.N, win0_7.index t = ![q.val, 0, 0] :=
  (by decide +kernel : ∀ q : Fin 8, ∃ t : Fin grid0.N, win0_7.index t = ![q.val, 0, 0])

/-! ## Each window's block at a point, read off the argument arrays -/

/-- The block of `x` at a point is the batch the output's block sits at. -/
theorem xblock (c : Dev nD) (t : Fin cfg0.N) (b : Fin 8) (hb : b.val = win0_7.index t (0 : Fin 3)) :
    rows (iblk m c 0 t) = fun l d => m ((c : Thread nD τ).loc main_arg0) (ix3 b l d) := by
  obtain ⟨e0, e1, e2, _⟩ := idx_facts t
  funext l d
  show V m c main_arg0 (((cfg0.win 0).blk t).view.emb (ix3 (0 : Fin 1) l d)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 2048 + 1 * l.val = l.val; omega
  | ⟨2, _⟩ => show win0_0.index t (2 : Fin 3) * 64 + 1 * d.val = d.val; omega

theorem wblock1 (c : Dev nD) (t : Fin cfg0.N) :
    mat (iblk m c 1 t) = fun e d => m ((c : Thread nD τ).loc main_arg1) (ix2 e d) := by
  obtain ⟨_, _, _, _, _, e10, e11, e20, e21, e30, e31, e40, e41, e50, e51, e60, e61⟩ := idx_facts t
  funext e d
  show V m c main_arg1 (((cfg0.win 1).blk t).view.emb (ix2 e d)) = _
  rw [V_main_arg1]
  refine congrArg _ (funext fun a => Fin.ext ?_)
  match a with
  | ⟨0, _⟩ => show win0_1.index t (0 : Fin 2) * 64 + 1 * e.val = e.val; omega
  | ⟨1, _⟩ => show win0_1.index t (1 : Fin 2) * 64 + 1 * d.val = d.val; omega

theorem wblock3 (c : Dev nD) (t : Fin cfg0.N) :
    mat (iblk m c 3 t) = fun e d => m ((c : Thread nD τ).loc main_arg3) (ix2 e d) := by
  obtain ⟨_, _, _, _, _, e10, e11, e20, e21, e30, e31, e40, e41, e50, e51, e60, e61⟩ := idx_facts t
  funext e d
  show V m c main_arg3 (((cfg0.win 3).blk t).view.emb (ix2 e d)) = _
  rw [V_main_arg3]
  refine congrArg _ (funext fun a => Fin.ext ?_)
  match a with
  | ⟨0, _⟩ => show win0_3.index t (0 : Fin 2) * 64 + 1 * e.val = e.val; omega
  | ⟨1, _⟩ => show win0_3.index t (1 : Fin 2) * 64 + 1 * d.val = d.val; omega

theorem wblock5 (c : Dev nD) (t : Fin cfg0.N) :
    mat (iblk m c 5 t) = fun e d => m ((c : Thread nD τ).loc main_arg5) (ix2 e d) := by
  obtain ⟨_, _, _, _, _, e10, e11, e20, e21, e30, e31, e40, e41, e50, e51, e60, e61⟩ := idx_facts t
  funext e d
  show V m c main_arg5 (((cfg0.win 5).blk t).view.emb (ix2 e d)) = _
  rw [V_main_arg5]
  refine congrArg _ (funext fun a => Fin.ext ?_)
  match a with
  | ⟨0, _⟩ => show win0_5.index t (0 : Fin 2) * 64 + 1 * e.val = e.val; omega
  | ⟨1, _⟩ => show win0_5.index t (1 : Fin 2) * 64 + 1 * d.val = d.val; omega

/-- Before the region the host only re-lays bias vector `main_arg2` as a one-row matrix. -/
theorem V_main_v0 (c : Dev nD) :
    (V m c main_v0 : S1x64.Idx → EReal) = shapeCast S1x64 (m ((c : Thread nD τ).loc main_arg2)) shapeCasts_S64_S1x64 := by
  dsimp only [Gen.V, Gen.hostOps0]; after_results; rfl

theorem bblock2 (c : Dev nD) (t : Fin cfg0.N) :
    brow (iblk m c 2 t) = fun e => m ((c : Thread nD τ).loc main_arg2) (ix1 e) := by
  obtain ⟨_, _, _, _, _, e10, e11, e20, e21, e30, e31, e40, e41, e50, e51, e60, e61⟩ := idx_facts t
  funext e
  show V m c main_v0 (((cfg0.win 2).blk t).view.emb (ix2 (0 : Fin 1) e)) = _
  have hemb : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 64 + 1 * e.val = e.val; omega)
  rw [hemb, V_main_v0]
  exact shapeCast_a_1a_apply _ _ 0 e

/-- Before the region the host only re-lays bias vector `main_arg4` as a one-row matrix. -/
theorem V_main_v1 (c : Dev nD) :
    (V m c main_v1 : S1x64.Idx → EReal) = shapeCast S1x64 (m ((c : Thread nD τ).loc main_arg4)) shapeCasts_S64_S1x64 := by
  dsimp only [Gen.V, Gen.hostOps0]; after_results; rfl

theorem bblock4 (c : Dev nD) (t : Fin cfg0.N) :
    brow (iblk m c 4 t) = fun e => m ((c : Thread nD τ).loc main_arg4) (ix1 e) := by
  obtain ⟨_, _, _, _, _, e10, e11, e20, e21, e30, e31, e40, e41, e50, e51, e60, e61⟩ := idx_facts t
  funext e
  show V m c main_v1 (((cfg0.win 4).blk t).view.emb (ix2 (0 : Fin 1) e)) = _
  have hemb : ((cfg0.win 4).blk t).view.emb (ix2 (0 : Fin 1) e) = ix2 (0 : Fin 1) e := funext fun a => Fin.ext (by
    match a with
    | ⟨0, _⟩ => show win0_4.index t (0 : Fin 2) * 1 + 1 * 0 = 0; omega
    | ⟨1, _⟩ => show win0_4.index t (1 : Fin 2) * 64 + 1 * e.val = e.val; omega)
  rw [hemb, V_main_v1]
  exact shapeCast_a_1a_apply _ _ 0 e

/-- Before the region the host only re-lays bias vector `main_arg6` as a one-row matrix. -/
theorem V_main_v2 (c : Dev nD) :
    (V m c main_v2 : S1x64.Idx → EReal) = shapeCast S1x64 (m ((c : Thread nD τ).loc main_arg6)) shapeCasts_S64_S1x64 := by
  dsimp only [Gen.V, Gen.hostOps0]; after_results; rfl

theorem bblock6 (c : Dev nD) (t : Fin cfg0.N) :
    brow (iblk m c 6 t) = fun e => m ((c : Thread nD τ).loc main_arg6) (ix1 e) := by
  obtain ⟨_, _, _, _, _, e10, e11, e20, e21, e30, e31, e40, e41, e50, e51, e60, e61⟩ := idx_facts t
  funext e
  show V m c main_v2 (((cfg0.win 6).blk t).view.emb (ix2 (0 : Fin 1) e)) = _
  have hemb : ((cfg0.win 6).blk t).view.emb (ix2 (0 : Fin 1) e) = ix2 (0 : Fin 1) e := funext fun a => Fin.ext (by
    match a with
    | ⟨0, _⟩ => show win0_6.index t (0 : Fin 2) * 1 + 1 * 0 = 0; omega
    | ⟨1, _⟩ => show win0_6.index t (1 : Fin 2) * 64 + 1 * e.val = e.val; omega)
  rw [hemb, V_main_v2]
  exact shapeCast_a_1a_apply _ _ 0 e

/-! ## What a point writes back, the cover, the array after the run -/

/-- WHAT POINT `t` WRITES BACK is block `t` of `G` of the argument arrays. -/
theorem flushed_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg3))
        (m ((c : Thread nD τ).loc main_arg5)) (m ((c : Thread nD τ).loc main_arg2)) (m ((c : Thread nD τ).loc main_arg4))
        (m ((c : Thread nD τ).loc main_arg6))) := by
  rw [Value.flushed7]
  unfold out0_7
  rw [View.canon_unit_zero hz3]
  simp only [View.ld_unit_zero (S := S1x2048x64) hz3, View.ld_unit_zero (S := S64x64) hz2, View.ld_unit_zero (S := S1x64) hz2]
  funext y
  obtain ⟨u, l, d, rfl⟩ : ∃ (u : Fin 1) (l : Fin 2048) (d : Fin 64), y = ix3 u l d := ⟨y 0, y 1, y 2, eq_ix3 y⟩
  obtain rfl : u = 0 := Subsingleton.elim _ _
  obtain ⟨b, l', d', hi⟩ : ∃ (b : Fin 8) (l' : Fin 2048) (d' : Fin 64),
      ((cfg0.win 7).blk t).view.emb (ix3 (0 : Fin 1) l d) = ix3 b l' d' := ⟨_, _, _, eq_ix3 _⟩
  obtain ⟨e0, e1, e2, e3, e4, _⟩ := idx_facts t
  have h0 : win0_7.index t (0 : Fin 3) * 1 + 1 * 0 = b.val := congrArg Fin.val (congrFun hi 0)
  have h1 : win0_7.index t (1 : Fin 3) * 2048 + 1 * l.val = l'.val := congrArg Fin.val (congrFun hi 1)
  have h2 : win0_7.index t (2 : Fin 3) * 64 + 1 * d.val = d'.val := congrArg Fin.val (congrFun hi 2)
  obtain rfl : l' = l := Fin.ext (by omega)
  obtain rfl : d' = d := Fin.ext (by omega)
  show k0_pay1 (F := Ideal) (k0_pay2 (iblk m c 0 t)) (k0_pay4 (iblk m c 0 t) (iblk m c 5 t) (iblk m c 6 t))
      (k0_pay5 (iblk m c 0 t) (iblk m c 1 t) (iblk m c 3 t) (iblk m c 2 t) (iblk m c 4 t))
      (k0_pay6 (iblk m c 0 t) (iblk m c 1 t) (iblk m c 3 t) (iblk m c 2 t) (iblk m c 4 t)) (ix3 (0 : Fin 1) l' d')
    = G _ _ _ _ _ _ _ (((cfg0.win 7).blk t).view.emb (ix3 (0 : Fin 1) l' d'))
  rw [hi, G_apply]
  refine (stored_apply (iblk m c 0 t) (iblk m c 1 t) (iblk m c 3 t) (iblk m c 5 t) (iblk m c 2 t) (iblk m c 4 t) (iblk m c 6 t) l' d').trans ?_
  rw [xblock m c t b (by omega), wblock1, wblock3, wblock5, bblock2, bblock4, bblock6]

/-- An index of the array is in point `t`'s block iff each coordinate is in the block's range on its axis. -/
theorem mem_blk (t : Fin cfg0.N) (i : S8x2048x64.Idx) :
    i ∈ ((cfg0.win 7).blk t).view.set ↔ ∀ a : Fin 3, win0_7.index t a * S1x2048x64.size a ≤ (i a).val
      ∧ (i a).val < win0_7.index t a * S1x2048x64.size a + S1x2048x64.size a := by
  show i ∈ ((View.whole main_v3).slice (win0_7.rect t)).set ↔ _
  rw [View.set_slice_whole, Rect.mem_set_unit]
  exact Iff.rfl

/-- Every index of the result array is in the block of the point of its batch. -/
theorem cover (i : S8x2048x64.Idx) : ∃ t : Fin cfg0.N, (cfg0.win 7).flush t = true ∧ i ∈ ((cfg0.win 7).blk t).view.set := by
  obtain ⟨t, ht⟩ := idx_onto (i 0)
  have q0 : win0_7.index t (0 : Fin 3) = (i 0).val := congrFun ht 0
  have q1 : win0_7.index t (1 : Fin 3) = 0 := congrFun ht 1
  have q2 : win0_7.index t (2 : Fin 3) = 0 := congrFun ht 2
  have hi1 : (i 1).val < 2048 := (i 1).isLt
  have hi2 : (i 2).val < 64 := (i 2).isLt
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 64 ≤ (i 2).val ∧ (i 2).val < win0_7.index t (2 : Fin 3) * 64 + 64; omega

/-- THE ARRAY after the run is `G` of the argument arrays. -/
theorem final (c : Dev nD) : (dats m 0 c).arrAt 7 cfg0.N
    = G (m ((c : Thread nD τ).loc main_arg0)) (m ((c : Thread nD τ).loc main_arg1)) (m ((c : Thread nD τ).loc main_arg3))
        (m ((c : Thread nD τ).loc main_arg5)) (m ((c : Thread nD τ).loc main_arg2)) (m ((c : Thread nD τ).loc main_arg4))
        (m ((c : Thread nD τ).loc main_arg6)) :=
  (dats m 0 c).arrAt_eq_of_cover 7 _ (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg3))
            (m ((c : Thread nD τ).loc main_arg5)) (m ((c : Thread nD τ).loc main_arg2)) (m ((c : Thread nD τ).loc main_arg4))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.RefValue.lean ====
/-
  The reference's result, read at an index stage by stage.

  The reference computes, over all eight batches at once, the three projections (`x` contracted with a weight matrix
  on the last axis of both, plus the bias broadcast over batches and rows), the scores (a batched product of the
  first two projections contracted on their last axes), the activations (maximum with zero), each column's
  denominator (the sum of the activations over the ROW axis, plus the constant, kept as an `8 × 1 × 2048` array and
  broadcast back over the rows), the quotient of the activations by the denominators, and `x` plus the batched
  product of the quotients with the third projection.  Each stage read at an index written by its coordinates is the
  corresponding formula of `Spec.lean` over the rows of batch `b`; the only work is to identify each stage's index map
  at `(b, l, ·)` with the coordinates it reads.  Together (`result_apply`): the result at `(b, l, d)` is the
  column-normalised attention of batch `b` in its quotient spelling.
-/
import proofs.«162024_j11089605558362_1_alg».proof.Proof.Gen.ReferenceIdeal.Read
import proofs.«162024_j11089605558362_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.ColumnAttention
open scoped BigOperators

variable (x0 : (⟨S8x2048x64, .f32⟩ : BufTy).Contents (Elt Ideal))
  (x1 x3 x5 : (⟨S64x64, .f32⟩ : BufTy).Contents (Elt Ideal)) (x2 x4 x6 : (⟨S64, .f32⟩ : BufTy).Contents (Elt Ideal))

/-- The rows of batch `b`. -/
def rowsAt (b : Fin 8) : Fin 2048 → Fin 64 → EReal := fun l d => x0 (ix3 b l d)
/-- A weight matrix by its coordinates. -/
def mat (w : (⟨S64x64, .f32⟩ : BufTy).Contents (Elt Ideal)) : Fin 64 → Fin 64 → EReal := fun e d => w (ix2 e d)
/-- A bias vector by its coordinate. -/
def vec (v : (⟨S64, .f32⟩ : BufTy).Contents (Elt Ideal)) : Fin 64 → EReal := fun e => v (ix1 e)

/-- The constant the reference adds to a column's sum. -/
abbrev eps : EReal := Ideal.ofBits .f32 0x322BCC77#32

/-! ## The index maps of the stages at an index written by coordinates -/

theorem lidx_proj (b : Fin 8) (l : Fin 2048) (e k : Fin 64) : lidx_main_v0 (ix3 b l e) k = ix3 b l k := by
  funext a; apply Fin.ext; match a with | ⟨0, _⟩ => rfl | ⟨1, _⟩ => rfl | ⟨2, _⟩ => rfl
theorem ridx_proj (b : Fin 8) (l : Fin 2048) (e k : Fin 64) : ridx_main_v0 (ix3 b l e) k = ix2 e k := by
  funext a; apply Fin.ext; match a with | ⟨0, _⟩ => rfl | ⟨1, _⟩ => rfl
theorem idx_bias (b : Fin 8) (l : Fin 2048) (e : Fin 64) : idx_main_v1 (idx_main_v2 (ix3 b l e)) = ix1 e := by
  funext a; apply Fin.ext; match a with | ⟨0, _⟩ => rfl

/-- A projection `x · Wᵀ + bias` read at `(b, l, e)`. -/
theorem proj_apply (w : (⟨S64x64, .f32⟩ : BufTy).Contents (Elt Ideal)) (bias : (⟨S64, .f32⟩ : BufTy).Contents (Elt Ideal))
    (b : Fin 8) (l : Fin 2048) (e : Fin 64) :
    val_main_v3 (F := Ideal) x0 w bias (ix3 b l e) = lin (rowsAt x0 b) (mat w) (vec bias) l e := by
  rw [val_main_v3_apply, val_main_v0_apply, val_main_v2_apply, val_main_v1_apply, Ideal.addf_def, idx_bias]
  unfold lin
  refine congrArg (· + vec bias e) (Finset.sum_congr rfl fun k _ => ?_)
  rw [lidx_proj, ridx_proj]
  rfl

/-- The second and third projections are the same stage as the first, over other weights. -/
theorem v7_eq : val_main_v7 (F := Ideal) x0 x3 x4 = val_main_v3 (F := Ideal) x0 x3 x4 := rfl
theorem v19_eq : val_main_v19 (F := Ideal) x0 x5 x6 = val_main_v3 (F := Ideal) x0 x5 x6 := rfl

theorem lidx_score (b : Fin 8) (l m : Fin 2048) (k : Fin 64) : lidx_main_v8 (ix3 b l m) k = ix3 b l k := by
  funext a; apply Fin.ext; match a with | ⟨0, _⟩ => rfl | ⟨1, _⟩ => rfl | ⟨2, _⟩ => rfl
theorem ridx_score (b : Fin 8) (l m : Fin 2048) (k : Fin 64) : ridx_main_v8 (ix3 b l m) k = ix3 b m k := by
  funext a; apply Fin.ext; match a with | ⟨0, _⟩ => rfl | ⟨1, _⟩ => rfl | ⟨2, _⟩ => rfl

/-- The activation at `(b, l, m)`. -/
theorem act_apply (b : Fin 8) (l m : Fin 2048) :
    val_main_v9 (F := Ideal) x0 x1 x2 x3 x4 (ix3 b l m) = act (rowsAt x0 b) (mat x1) (mat x3) (vec x2) (vec x4) l m := by
  rw [val_main_v9_apply, val_main_call0_v0_apply, val_main_call0_cst_apply, Ideal.maximumf_def, Ideal.ofBits_def,
    Ideal.ofBits_zero_f32, val_main_v8_apply]
  unfold act score
  refine congrArg (max · 0) (Finset.sum_congr rfl fun k _ => ?_)
  rw [lidx_score, ridx_score, v7_eq, proj_apply, proj_apply]

theorem idx_colsum (b : Fin 8) (u : Fin 1) (m k : Fin 2048) : idx_main_v10 (idx_main_v11 (ix3 b u m)) k = ix3 b k m := by
  funext a; apply Fin.ext; match a with | ⟨0, _⟩ => rfl | ⟨1, _⟩ => rfl | ⟨2, _⟩ => rfl

/-- The denominator of column `m` of batch `b`. -/
theorem colsum_apply (b : Fin 8) (u : Fin 1) (m : Fin 2048) :
    val_main_v13 (F := Ideal) x0 x1 x2 x3 x4 (ix3 b u m)
      = colsum (rowsAt x0 b) (mat x1) (mat x3) (vec x2) (vec x4) eps m := by
  rw [val_main_v13_apply, val_main_v11_apply, val_main_v10_apply, val_main_v12_apply, val_main_cst_0_apply, val_main_cst_apply,
    Ideal.addf_def, Ideal.ofBits_def, Ideal.ofBits_def, Ideal.ofBits_zero_f32, zero_add]
  unfold colsum
  refine congrArg (· + eps) (Finset.sum_congr rfl fun k _ => ?_)
  rw [idx_colsum, act_apply]

theorem idx_bcast (b : Fin 8) (l m : Fin 2048) : idx_main_v14 (ix3 b l m) = ix3 b (0 : Fin 1) m := by
  funext a; apply Fin.ext; match a with | ⟨0, _⟩ => rfl | ⟨1, _⟩ => rfl | ⟨2, _⟩ => rfl

/-- The normalised activation at `(b, l, m)`: the activation divided by its column's denominator. -/
theorem attn_apply (b : Fin 8) (l m : Fin 2048) :
    val_main_v15 (F := Ideal) x0 x1 x2 x3 x4 (ix3 b l m)
      = Ideal.div (act (rowsAt x0 b) (mat x1) (mat x3) (vec x2) (vec x4) l m)
          (colsum (rowsAt x0 b) (mat x1) (mat x3) (vec x2) (vec x4) eps m) := by
  rw [val_main_v15_apply, val_main_v14_apply, Ideal.hostDivf_def, idx_bcast, colsum_apply, act_apply]

theorem lidx_out (b : Fin 8) (l : Fin 2048) (d : Fin 64) (k : Fin 2048) : lidx_main_v20 (ix3 b l d) k = ix3 b l k := by
  funext a; apply Fin.ext; match a with | ⟨0, _⟩ => rfl | ⟨1, _⟩ => rfl | ⟨2, _⟩ => rfl
theorem ridx_out (b : Fin 8) (l : Fin 2048) (d : Fin 64) (k : Fin 2048) : ridx_main_v20 (ix3 b l d) k = ix3 b k d := by
  funext a; apply Fin.ext; match a with | ⟨0, _⟩ => rfl | ⟨1, _⟩ => rfl | ⟨2, _⟩ => rfl

/-- The reference's result at `(b, l, d)`: the column-normalised attention of batch `b`, each activation divided by
    its column's denominator. -/
theorem result_apply (b : Fin 8) (l : Fin 2048) (d : Fin 64) :
    val_main_v21 (F := Ideal) x0 x1 x2 x3 x4 x5 x6 (ix3 b l d)
      = outDiv (rowsAt x0 b) (mat x1) (mat x3) (mat x5) (vec x2) (vec x4) (vec x6) eps l d := by
  rw [val_main_v21_apply, val_main_v20_apply, Ideal.addf_def]
  unfold outDiv
  refine congrArg (x0 (ix3 b l d) + ·) (Finset.sum_congr rfl fun k _ => ?_)
  rw [lidx_out, ridx_out, attn_apply, v19_eq, proj_apply]

end Cert.ReferenceIdeal.RefValue

end
-- ==== Proof.lean ====
/-
  The certificate of a column-normalised attention kernel against its plain reference.

  For each of eight batches `b` both programs form, from the block `X = x[b]` of 2048 rows and 64 columns, the three
  projections `X · Wᵀ + bias`, the scores `BZ · CZᵀ`, the activations `max(score, 0)`, the denominators
  `(∑ over rows l of act(l, m)) + ε` of each COLUMN `m`, and the result `X + A · VZ` with `A` the activations divided,
  column by column, by those denominators.  The kernel does one batch per grid point (its matrix products are
  sums over the contracted axis at the ideal values, its half-precision casts the identity), multiplies an
  activation with the reciprocal `1 / denominator`, and the reference divides by the denominator.  The two agree
  because a denominator is a sum of non-negative terms plus the positive `ε`, so it is positive, and off zero the
  product with the reciprocal IS the quotient on every extended real: no use is made of the inputs' finiteness.

  `KernelValue.lean` reads the kernel's result array as one function `G` of the argument arrays (each grid point
  writes the block of its batch, and the eight blocks cover the array); `RefValue.lean` reads the reference's result,
  stage by stage, at an index; `Spec.lean` has the computation over coordinate functions and the law joining the two.
-/
import proofs.«162024_j11089605558362_1_alg».proof.Defs
import proofs.«162024_j11089605558362_1_alg».proof.Proof.Gen.Kernel
import proofs.«162024_j11089605558362_1_alg».proof.Proof.Gen.Kernel.Frame
import proofs.«162024_j11089605558362_1_alg».proof.Proof.Gen.KernelIdeal
import proofs.«162024_j11089605558362_1_alg».proof.Proof.Gen.KernelIdeal.Frame
import proofs.«162024_j11089605558362_1_alg».proof.Proof.Gen.KernelIdeal.Value
import proofs.«162024_j11089605558362_1_alg».proof.Proof.Gen.ReferenceIdeal
import proofs.«162024_j11089605558362_1_alg».proof.Proof.Gen.ReferenceIdeal.Run
import proofs.«162024_j11089605558362_1_alg».proof.Proof.Gen.ReferenceIdeal.Read
import proofs.«162024_j11089605558362_1_alg».proof.Proof.Gen.Pre_finite_inputs
import proofs.«162024_j11089605558362_1_alg».proof.Proof.Spec
import proofs.«162024_j11089605558362_1_alg».proof.Proof.KernelValue
import proofs.«162024_j11089605558362_1_alg».proof.Proof.RefValue
import Idealize.ShloMosaic.Adequacy
import Idealize.ShloMosaic.Init

noncomputable section

namespace Cert.Proof

open Idealize.ShloMosaic Idealize.SL.Sem Idealize.ShloMosaic.ValueIdx

/-- The reference's result, as a function of the seven argument arrays, is the kernel's: at `(b, l, d)` the first is
    the attention of batch `b` with each activation divided by its column's denominator, the second the same with the
    activation multiplied by the denominator's reciprocal, and the denominators are positive. -/
theorem result_eq (x0 : (⟨3, ![8, 2048, 64]⟩ : Shape).Idx → EReal) (x1 x3 x5 : (⟨2, ![64, 64]⟩ : Shape).Idx → EReal)
    (x2 x4 x6 : (⟨1, ![64]⟩ : Shape).Idx → EReal) :
    Cert.ReferenceIdeal.Read.val_main_v21 (F := Ideal) x0 x1 x2 x3 x4 x5 x6 = Cert.KernelIdeal.ArrayValue.G x0 x1 x3 x5 x2 x4 x6 := by
  funext i
  obtain ⟨b, l, d, rfl⟩ : ∃ (b : Fin 8) (l : Fin 2048) (d : Fin 64), i = ix3 b l d := ⟨i 0, i 1, i 2, eq_ix3 i⟩
  rw [Cert.ReferenceIdeal.RefValue.result_apply, Cert.KernelIdeal.ArrayValue.G_apply]
  exact (Cert.ColumnAttention.outMul_eq_outDiv _ _ _ _ _ _ _ _ Cert.ColumnAttention.eps_pos l d).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel ends with its result array at `G` of the arguments and the
    reference with its result at the last stage of the same arguments: one function (`result_eq`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2, Cert.ReferenceIdeal.Read.val_main_v21_eq]
  exact result_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
